-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_49" .f32 0x3CA72F05#32 ((1 / 49 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000x256x7x7 : Shape := ⟨4, ![5000, 256, 7, 7]⟩
abbrev S81x256 : Shape := ⟨2, ![81, 256]⟩
abbrev S81 : Shape := ⟨1, ![81]⟩
abbrev S324x256 : Shape := ⟨2, ![324, 256]⟩
abbrev S324 : Shape := ⟨1, ![324]⟩
abbrev S_ : Shape := ⟨0, ![]⟩

class Facts : Prop where
  bcast_S_S5000x256x7x7 : S_.BroadcastsInDim S5000x256x7x7 (![] : Fin 0 → Fin S5000x256x7x7.rank)
  reducesTo_S5000x256x7x7_S_d0_1_2_3 : S5000x256x7x7.ReducesTo [0, 1, 2, 3] S_
  h_S_ : 0 < S_.numel
  bcast_S_S81x256 : S_.BroadcastsInDim S81x256 (![] : Fin 0 → Fin S81x256.rank)
  reducesTo_S81x256_S_d0_1 : S81x256.ReducesTo [0, 1] S_
  bcast_S_S81 : S_.BroadcastsInDim S81 (![] : Fin 0 → Fin S81.rank)
  reducesTo_S81_S_d0 : S81.ReducesTo [0] S_
  bcast_S_S324x256 : S_.BroadcastsInDim S324x256 (![] : Fin 0 → Fin S324x256.rank)
  reducesTo_S324x256_S_d0_1 : S324x256.ReducesTo [0, 1] S_
  bcast_S_S324 : S_.BroadcastsInDim S324 (![] : Fin 0 → Fin S324.rank)
  reducesTo_S324_S_d0 : S324.ReducesTo [0] S_

variable [Facts]

def fn_part1 {F : FTy → Type} [FloatOps F] (main_arg4 : FVec F S324 .f32) (main_v13 : IVec S_ 1) (main_v16 : IVec S324x256 1) : IVec S_ 1 :=
  let main_c_5 : IVec S_ 1 := constantI S_ 1 1#1
  let main_v17 : IVec S_ 1 := (fun x v => Host.reduce IntOp.andi x v reducesTo_S324x256_S_d0_1 h_S_) main_v16 main_c_5
  let main_v18 : IVec S_ 1 := andi main_v13 main_v17
  let main_v19 : FVec F S324 .f32 := Host.absf main_arg4
  let main_cst_6 : FVec F S_ .f32 := constant S_ .f32 0x7F800000#32
  let main_v20 : FVec F S324 .f32 := broadcastInDim S324 ![] bcast_S_S324 main_cst_6
  let main_v21 : IVec S324 1 := cmpf .olt main_v19 main_v20
  let main_c_7 : IVec S_ 1 := constantI S_ 1 1#1
  let main_v22 : IVec S_ 1 := (fun x v => Host.reduce IntOp.andi x v reducesTo_S324_S_d0 h_S_) main_v21 main_c_7
  let main_v23 : IVec S_ 1 := andi main_v18 main_v22
  main_v23

def fn {F : FTy → Type} [FloatOps F] (main_arg0 : FVec F S5000x256x7x7 .f32) (main_arg1 : FVec F S81x256 .f32) (main_arg2 : FVec F S81 .f32) (main_arg3 : FVec F S324x256 .f32) (main_arg4 : FVec F S324 .f32) : IVec S_ 1 :=
  let main_v0 : FVec F S5000x256x7x7 .f32 := Host.absf main_arg0
  let main_cst : FVec F S_ .f32 := constant S_ .f32 0x7F800000#32
  let main_v1 : FVec F S5000x256x7x7 .f32 := broadcastInDim S5000x256x7x7 ![] bcast_S_S5000x256x7x7 main_cst
  let main_v2 : IVec S5000x256x7x7 1 := cmpf .olt main_v0 main_v1
  let main_c : IVec S_ 1 := constantI S_ 1 1#1
  let main_v3 : IVec S_ 1 := (fun x v => Host.reduce IntOp.andi x v reducesTo_S5000x256x7x7_S_d0_1_2_3 h_S_) main_v2 main_c
  let main_v4 : FVec F S81x256 .f32 := Host.absf main_arg1
  let main_cst_0 : FVec F S_ .f32 := constant S_ .f32 0x7F800000#32
  let main_v5 : FVec F S81x256 .f32 := broadcastInDim S81x256 ![] bcast_S_S81x256 main_cst_0
  let main_v6 : IVec S81x256 1 := cmpf .olt main_v4 main_v5
  let main_c_1 : IVec S_ 1 := constantI S_ 1 1#1
  let main_v7 : IVec S_ 1 := (fun x v => Host.reduce IntOp.andi x v reducesTo_S81x256_S_d0_1 h_S_) main_v6 main_c_1
  let main_v8 : IVec S_ 1 := andi main_v3 main_v7
  let main_v9 : FVec F S81 .f32 := Host.absf main_arg2
  let main_cst_2 : FVec F S_ .f32 := constant S_ .f32 0x7F800000#32
  let main_v10 : FVec F S81 .f32 := broadcastInDim S81 ![] bcast_S_S81 main_cst_2
  let main_v11 : IVec S81 1 := cmpf .olt main_v9 main_v10
  let main_c_3 : IVec S_ 1 := constantI S_ 1 1#1
  let main_v12 : IVec S_ 1 := (fun x v => Host.reduce IntOp.andi x v reducesTo_S81_S_d0 h_S_) main_v11 main_c_3
  let main_v13 : IVec S_ 1 := andi main_v8 main_v12
  let main_v14 : FVec F S324x256 .f32 := Host.absf main_arg3
  let main_cst_4 : FVec F S_ .f32 := constant S_ .f32 0x7F800000#32
  let main_v15 : FVec F S324x256 .f32 := broadcastInDim S324x256 ![] bcast_S_S324x256 main_cst_4
  let main_v16 : IVec S324x256 1 := cmpf .olt main_v14 main_v15
  fn_part1 (F := F) main_arg4 main_v13 main_v16
-- ==== Kernel.lean ====
abbrev S5000x256x7x7 : Shape := ⟨4, ![5000, 256, 7, 7]⟩
abbrev S81x256 : Shape := ⟨2, ![81, 256]⟩
abbrev S81 : Shape := ⟨1, ![81]⟩
abbrev S324x256 : Shape := ⟨2, ![324, 256]⟩
abbrev S324 : Shape := ⟨1, ![324]⟩
abbrev S7x7x5000x256 : Shape := ⟨4, ![7, 7, 5000, 256]⟩
abbrev S49x5000x256 : Shape := ⟨3, ![49, 5000, 256]⟩
abbrev S1x81 : Shape := ⟨2, ![1, 81]⟩
abbrev S1x324 : Shape := ⟨2, ![1, 324]⟩
abbrev S5000x81 : Shape := ⟨2, ![5000, 81]⟩
abbrev S5000x324 : Shape := ⟨2, ![5000, 324]⟩
abbrev S49x200x256 : Shape := ⟨3, ![49, 200, 256]⟩
abbrev S200x81 : Shape := ⟨2, ![200, 81]⟩
abbrev S200x324 : Shape := ⟨2, ![200, 324]⟩
abbrev S200x256 : Shape := ⟨2, ![200, 256]⟩

abbrev nBuf : Space → Nat
  | .hbm => 11
  | .vmem => 10
  | .smem => 0
  | _ => 0

abbrev bufTy : (tb : Table) → Fin (tcTables nBuf tb) → BufTy
  | .hbm, ⟨0, _⟩ => ⟨S5000x256x7x7, .f32⟩
  | .hbm, ⟨1, _⟩ => ⟨S81x256, .f32⟩
  | .hbm, ⟨2, _⟩ => ⟨S81, .f32⟩
  | .hbm, ⟨3, _⟩ => ⟨S324x256, .f32⟩
  | .hbm, ⟨4, _⟩ => ⟨S324, .f32⟩
  | .hbm, ⟨5, _⟩ => ⟨S7x7x5000x256, .f32⟩
  | .hbm, ⟨6, _⟩ => ⟨S49x5000x256, .f32⟩
  | .hbm, ⟨7, _⟩ => ⟨S1x81, .f32⟩
  | .hbm, ⟨8, _⟩ => ⟨S1x324, .f32⟩
  | .hbm, ⟨9, _⟩ => ⟨S5000x81, .f32⟩
  | .hbm, ⟨10, _⟩ => ⟨S5000x324, .f32⟩
  | .local _ .vmem, ⟨0, _⟩ => ⟨S49x200x256, .f32⟩
  | .local _ .vmem, ⟨1, _⟩ => ⟨S49x200x256, .f32⟩
  | .local _ .vmem, ⟨2, _⟩ => ⟨S81x256, .f32⟩
  | .local _ .vmem, ⟨3, _⟩ => ⟨S324x256, .f32⟩
  | .local _ .vmem, ⟨4, _⟩ => ⟨S1x81, .f32⟩
  | .local _ .vmem, ⟨5, _⟩ => ⟨S1x324, .f32⟩
  | .local _ .vmem, ⟨6, _⟩ => ⟨S200x81, .f32⟩
  | .local _ .vmem, ⟨7, _⟩ => ⟨S200x81, .f32⟩
  | .local _ .vmem, ⟨8, _⟩ => ⟨S200x324, .f32⟩
  | .local _ .vmem, ⟨9, _⟩ => ⟨S200x324, .f32⟩
  | _, _ => ⟨S5000x256x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S49x200x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S81x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S324x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x81 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x324 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S200x81 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S200x324 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S5000x256x7x7_S7x7x5000x256_2_3_0_1 : S5000x256x7x7.Transposes [2, 3, 0, 1] S7x7x5000x256
  shapeCasts_S7x7x5000x256_S49x5000x256 : S7x7x5000x256.ShapeCasts S49x5000x256
  bcast_S81_S1x81_1 : S81.BroadcastsInDim S1x81 (![1] : Fin 1 → Fin S1x81.rank)
  bcast_S324_S1x324_1 : S324.BroadcastsInDim S1x324 (![1] : Fin 1 → Fin S1x324.rank)
  inb_S49x200x256_S49x200x256_0_0_0 : ∀ a, (![0, 0, 0] : Fin 3 → Nat) a + S49x200x256.size a ≤ S49x200x256.size a
  h_S49x200x256 : 0 < S49x200x256.numel
  shapeCasts_S49x200x256_S49x200x256 : S49x200x256.ShapeCasts S49x200x256
  reduces_S49x200x256_S200x256 : S49x200x256.Reduces [0] S200x256
  bitsLt_bf16_f32 : FTy.bits .bf16 < FTy.bits .f32
  inb_S81x256_S81x256_0_0 : ∀ a, (![0, 0] : Fin 2 → Nat) a + S81x256.size a ≤ S81x256.size a
  h_S81x256 : 0 < S81x256.numel
  inb_S1x81_S1x81_0_0 : ∀ a, (![0, 0] : Fin 2 → Nat) a + S1x81.size a ≤ S1x81.size a
  h_S1x81 : 0 < S1x81.numel
  shapeCasts_S1x81_S1x81 : S1x81.ShapeCasts S1x81
  broadcasts_S1x81_S200x81 : S1x81.Broadcasts S200x81
  inb_S200x81_S200x81_0_0 : ∀ a, (![0, 0] : Fin 2 → Nat) a + S200x81.size a ≤ S200x81.size a
  h_S200x81 : 0 < S200x81.numel
  inb_S324x256_S324x256_0_0 : ∀ a, (![0, 0] : Fin 2 → Nat) a + S324x256.size a ≤ S324x256.size a
  h_S324x256 : 0 < S324x256.numel
  inb_S1x324_S1x324_0_0 : ∀ a, (![0, 0] : Fin 2 → Nat) a + S1x324.size a ≤ S1x324.size a
  h_S1x324 : 0 < S1x324.numel
  shapeCasts_S1x324_S1x324 : S1x324.ShapeCasts S1x324
  broadcasts_S1x324_S200x324 : S1x324.Broadcasts S200x324
  inb_S200x324_S200x324_0_0 : ∀ a, (![0, 0] : Fin 2 → Nat) a + S200x324.size a ≤ S200x324.size a
  h_S200x324 : 0 < S200x324.numel
  dot_S200x256_S81x256_S200x81_1_1_0_0_n_n_wf : DotDims.WF S200x256 S81x256 S200x81 [1] [1] [0] [0] [] []
  dot_S200x256_S324x256_S200x324_1_1_0_0_n_n_wf : DotDims.WF S200x256 S324x256 S200x324 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S49x200x256.size a ≤ S49x5000x256.size a
  hwx0_0 : ∀ i : grid0.Coords, EltTy.bits .f32 = 32 ∨ (Rect.block (s := S49x5000x256) S49x200x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S81x256.size a ≤ S81x256.size a
  hwx0_1 : ∀ i : grid0.Coords, EltTy.bits .f32 = 32 ∨ (Rect.block (s := S81x256) S81x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S324x256.size a ≤ S324x256.size a
  hwx0_2 : ∀ i : grid0.Coords, EltTy.bits .f32 = 32 ∨ (Rect.block (s := S324x256) S324x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x81.size a ≤ S1x81.size a
  hwx0_3 : ∀ i : grid0.Coords, EltTy.bits .f32 = 32 ∨ (Rect.block (s := S1x81) S1x81.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x324.size a ≤ S1x324.size a
  hwx0_4 : ∀ i : grid0.Coords, EltTy.bits .f32 = 32 ∨ (Rect.block (s := S1x324) S1x324.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x81.size a ≤ S5000x81.size a
  hwx0_5 : ∀ i : grid0.Coords, EltTy.bits .f32 = 32 ∨ (Rect.block (s := S5000x81) S200x81.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x324.size a ≤ S5000x324.size a
  hwx0_6 : ∀ i : grid0.Coords, EltTy.bits .f32 = 32 ∨ (Rect.block (s := S5000x324) S200x324.size (cc0_transform_6 i) (hinb0_6 i)).WholeWords (EltTy.packing .f32)

variable [Facts₀]

def dot_S200x256_S81x256_S200x81_1_1_0_0_n_n : DotDims S200x256 S81x256 S200x81 where
  lhsContracting := [1]
  rhsContracting := [1]
  lhsNonContracting := [0]
  rhsNonContracting := [0]
  lhsBatch := []
  rhsBatch := []
  wf := dot_S200x256_S81x256_S200x81_1_1_0_0_n_n_wf
def dot_S200x256_S324x256_S200x324_1_1_0_0_n_n : DotDims S200x256 S324x256 S200x324 where
  lhsContracting := [1]
  rhsContracting := [1]
  lhsNonContracting := [0]
  rhsNonContracting := [0]
  lhsBatch := []
  rhsBatch := []
  wf := dot_S200x256_S324x256_S200x324_1_1_0_0_n_n_wf

abbrev win0_0 : Pipeline.Window sig grid0 :=
  Pipeline.Window.ofSpec (Memref.whole main_v1) S49x200x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S81x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S324x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x81.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x324.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S200x81.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S200x324.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S5000x256x7x7 : Shape := ⟨4, ![5000, 256, 7, 7]⟩
abbrev S81x256 : Shape := ⟨2, ![81, 256]⟩
abbrev S81 : Shape := ⟨1, ![81]⟩
abbrev S324x256 : Shape := ⟨2, ![324, 256]⟩
abbrev S324 : Shape := ⟨1, ![324]⟩
abbrev S_ : Shape := ⟨0, ![]⟩
abbrev S5000x256 : Shape := ⟨2, ![5000, 256]⟩
abbrev S256x81 : Shape := ⟨2, ![256, 81]⟩
abbrev S5000x81 : Shape := ⟨2, ![5000, 81]⟩
abbrev S1x81 : Shape := ⟨2, ![1, 81]⟩
abbrev S256x324 : Shape := ⟨2, ![256, 324]⟩
abbrev S5000x324 : Shape := ⟨2, ![5000, 324]⟩
abbrev S1x324 : Shape := ⟨2, ![1, 324]⟩

abbrev nBuf : Space → Nat
  | .hbm => 20
  | .vmem => 0
  | .smem => 0
  | _ => 0

abbrev bufTy : (tb : Table) → Fin (tcTables nBuf tb) → BufTy
  | .hbm, ⟨0, _⟩ => ⟨S5000x256x7x7, .f32⟩
  | .hbm, ⟨1, _⟩ => ⟨S81x256, .f32⟩
  | .hbm, ⟨2, _⟩ => ⟨S81, .f32⟩
  | .hbm, ⟨3, _⟩ => ⟨S324x256, .f32⟩
  | .hbm, ⟨4, _⟩ => ⟨S324, .f32⟩
  | .hbm, ⟨5, _⟩ => ⟨S_, .f32⟩
  | .hbm, ⟨6, _⟩ => ⟨S5000x256, .f32⟩
  | .hbm, ⟨7, _⟩ => ⟨S_, .f32⟩
  | .hbm, ⟨8, _⟩ => ⟨S5000x256, .f32⟩
  | .hbm, ⟨9, _⟩ => ⟨S5000x256, .f32⟩
  | .hbm, ⟨10, _⟩ => ⟨S256x81, .f32⟩
  | .hbm, ⟨11, _⟩ => ⟨S5000x81, .f32⟩
  | .hbm, ⟨12, _⟩ => ⟨S1x81, .f32⟩
  | .hbm, ⟨13, _⟩ => ⟨S5000x81, .f32⟩
  | .hbm, ⟨14, _⟩ => ⟨S5000x81, .f32⟩
  | .hbm, ⟨15, _⟩ => ⟨S256x324, .f32⟩
  | .hbm, ⟨16, _⟩ => ⟨S5000x324, .f32⟩
  | .hbm, ⟨17, _⟩ => ⟨S1x324, .f32⟩
  | .hbm, ⟨18, _⟩ => ⟨S5000x324, .f32⟩
  | .hbm, ⟨19, _⟩ => ⟨S5000x324, .f32⟩
  | _, _ => ⟨S5000x256x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  reducesTo_S5000x256x7x7_S5000x256_d2_3 : S5000x256x7x7.ReducesTo [2, 3] S5000x256
  h_S_ : 0 < S_.numel
  bcast_S_S5000x256 : S_.BroadcastsInDim S5000x256 (![] : Fin 0 → Fin S5000x256.rank)
  transposes_S81x256_S256x81_1_0 : S81x256.Transposes [1, 0] S256x81
  bcast_S81_S1x81_1 : S81.BroadcastsInDim S1x81 (![1] : Fin 1 → Fin S1x81.rank)
  bcast_S1x81_S5000x81_0_1 : S1x81.BroadcastsInDim S5000x81 (![0, 1] : Fin 2 → Fin S5000x81.rank)
  transposes_S324x256_S256x324_1_0 : S324x256.Transposes [1, 0] S256x324
  bcast_S324_S1x324_1 : S324.BroadcastsInDim S1x324 (![1] : Fin 1 → Fin S1x324.rank)
  bcast_S1x324_S5000x324_0_1 : S1x324.BroadcastsInDim S5000x324 (![0, 1] : Fin 2 → Fin S5000x324.rank)
  dot_S5000x256_S256x81_S5000x81_1_0_0_1_n_n_wf : DotDims.WF S5000x256 S256x81 S5000x81 [1] [0] [0] [1] [] []
  dot_S5000x256_S256x324_S5000x324_1_0_0_1_n_n_wf : DotDims.WF S5000x256 S256x324 S5000x324 [1] [0] [0] [1] [] []

variable [Facts₀]

def dot_S5000x256_S256x81_S5000x81_1_0_0_1_n_n : DotDims S5000x256 S256x81 S5000x81 where
  lhsContracting := [1]
  rhsContracting := [0]
  lhsNonContracting := [0]
  rhsNonContracting := [1]
  lhsBatch := []
  rhsBatch := []
  wf := dot_S5000x256_S256x81_S5000x81_1_0_0_1_n_n_wf
def dot_S5000x256_S256x324_S5000x324_1_0_0_1_n_n : DotDims S5000x256 S256x324 S5000x324 where
  lhsContracting := [1]
  rhsContracting := [0]
  lhsNonContracting := [0]
  rhsNonContracting := [1]
  lhsBatch := []
  rhsBatch := []
  wf := dot_S5000x256_S256x324_S5000x324_1_0_0_1_n_n_wf

class Facts : Prop extends Facts₀ where

variable [Facts]
-- ==== Proof.PooledBlock.lean ====
/-
  The block of averages the kernel's body forms at a grid point.

  At a grid point the body holds a block of 200 samples of the transposed input: 49 slabs of 200 × 256, one slab per
  position of the 7 × 7 window. It sums the slabs entry by entry and multiplies the sum by the constant named 1/49;
  the change of float format that follows is the identity on extended reals. Read at sample `r` and channel `c`
  the result is `(∑ s, slab s (r, c)) · 1/49`.
-/
import proofs.«133133_g13692355740313_cont_week2b_1265_8_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx

/-- The constant the kernel multiplies the slab sum by is named: it denotes the rational 1/49. -/
theorem inv_49 : Named.named (F := Ideal) κ "inv_49" (φ := .f32) 0x3CA72F05#32 = ((1 / 49 : ℝ) : EReal) :=
  IdealRules.named_const.ideal_named_scalar _ _ _ _ rfl

/-- The sum of the 49 slabs at entry `(r, c)`: a sum over the leading axis, whose index with the slab's number put
    back in front is `(s, r, c)`. -/
theorem slabSum_apply (v : FVec Ideal S49x200x256 .f32) (h : S49x200x256.Reduces [0] S200x256) (hφ : FKind.Formats .f32)
    (hacc : (0x00000000#32 : BitVec 32) = FKind.add.neutral .f32 hφ) (r : Fin 200) (c : Fin 256) :
    multiReduction .add [0] S200x256 v 0x00000000#32 h hφ hacc (ix2 r c) = ∑ s : Fin 49, v (ix3 s r c) := by
  refine (Ideal.multiReduction_add_single v _ h hφ hacc (ix2 r c)).trans ?_
  refine Finset.sum_congr rfl fun s _ => congrArg v ?_
  funext a
  match a with
  | ⟨0, _⟩ => rfl
  | ⟨1, _⟩ => rfl
  | ⟨2, _⟩ => rfl

/-- The block of averages at `(r, c)`: the slab sum there times 1/49. -/
theorem pooledBlock_apply (v0 : Vec Ideal S49x200x256 .f32) (r : Fin 200) (c : Fin 256) :
    k0_pay1 (F := Ideal) v0 (ix2 r c) = (∑ s : Fin 49, v0 (ix3 s r c)) * ((1 / 49 : ℝ) : EReal) := by
  unfold k0_pay1
  dsimp only
  rw [truncf_apply, mulf_apply, broadcast_apply, inv_49, shapeCast_self]
  exact congrArg (· * ((1 / 49 : ℝ) : EReal)) (slabSum_apply v0 _ _ _ r c)

end Cert.KernelIdeal.BlockValue

end
-- ==== Proof.HeadSpec.lean ====
/-
  What both programs compute, as one function of the argument arrays.

  The input is a batch of 5000 feature maps with 256 channels over a 7 × 7 window. Each map is averaged over its
  window: the 49 entries are summed and the sum is multiplied by 1/49. The 5000 × 256 matrix of averages then goes
  through a linear head: entry (n, o) of the result is the sum over the 256 channels c of average(n, c) · W(o, c),
  plus the bias b(o). There are two heads, of 81 and of 324 outputs, over the same averages; the head is stated
  once, for any number of outputs.

  The window's 49 positions are listed row by row: position s is row s / 7, column s % 7. A sum over the 49
  positions is therefore the sum over the 7 × 7 pairs of coordinates, and dividing an extended real by 49 is
  multiplying it by 1/49, at the infinities too; these two facts are all that relate the two ways the programs
  spell the average.
-/
import Idealize.ShloMosaic.PureOps.Ideal
import Idealize.ShloMosaic.Lib.ValueIdx

noncomputable section

namespace Cert.PoolHeads

open Idealize.ShloMosaic Idealize.ShloMosaic.ValueIdx

/-! ## The window's positions -/

/-- Position `s` of the window, listed row by row, lies in row `s / 7` … -/
def winRow (s : Fin 49) : Fin 7 := ⟨s.val / 7, by omega⟩
/-- … and in column `s % 7`. -/
def winCol (s : Fin 49) : Fin 7 := ⟨s.val % 7, by omega⟩

/-- The 49 positions are the 7 × 7 pairs of a row and a column: `(a, b)` is position `7 a + b`. -/
def winEquiv : Fin 49 ≃ Fin 7 × Fin 7 where
  toFun s := (winRow s, winCol s)
  invFun p := ⟨p.1.val * 7 + p.2.val, by omega⟩
  left_inv s := Fin.ext (by simp only [winRow, winCol]; omega)
  right_inv p := Prod.ext (Fin.ext (by simp only [winRow, winCol]; omega)) (Fin.ext (by simp only [winRow, winCol]; omega))

/-- So a sum over the pairs of coordinates is the sum over the positions. -/
theorem sum_window {M : Type*} [AddCommMonoid M] (f : Fin 7 → Fin 7 → M) :
    ∑ p : Fin 7 × Fin 7, f p.1 p.2 = ∑ s : Fin 49, f (winRow s) (winCol s) :=
  (Equiv.sum_comp winEquiv (fun p => f p.1 p.2)).symm

/-! ## The function -/

/-- The average of feature map `(n, c)` over its window: the sum of its 49 entries times 1/49. -/
def pooled (x : (⟨4, ![5000, 256, 7, 7]⟩ : Shape).Idx → EReal) (n : Fin 5000) (c : Fin 256) : EReal :=
  (∑ s : Fin 49, x (ix4 n c (winRow s) (winCol s))) * ((1 / 49 : ℝ) : EReal)

/-- Output `o` of a linear head on sample `n`: the averages of the sample's 256 channels against row `o` of the
    weights, plus the bias. -/
def headAt {O : ℕ} (x : (⟨4, ![5000, 256, 7, 7]⟩ : Shape).Idx → EReal) (W : (⟨2, ![O, 256]⟩ : Shape).Idx → EReal)
    (b : (⟨1, ![O]⟩ : Shape).Idx → EReal) (n : Fin 5000) (o : Fin O) : EReal :=
  (∑ c : Fin 256, pooled x n c * W (ix2 o c)) + b (ix1 o)

/-- The head as an array over samples and outputs. -/
def head {O : ℕ} (x : (⟨4, ![5000, 256, 7, 7]⟩ : Shape).Idx → EReal) (W : (⟨2, ![O, 256]⟩ : Shape).Idx → EReal)
    (b : (⟨1, ![O]⟩ : Shape).Idx → EReal) : (⟨2, ![5000, O]⟩ : Shape).Idx → EReal :=
  fun i => headAt x W b (i 0) (i 1)

theorem head_ix2 {O : ℕ} (x : (⟨4, ![5000, 256, 7, 7]⟩ : Shape).Idx → EReal) (W : (⟨2, ![O, 256]⟩ : Shape).Idx → EReal)
    (b : (⟨1, ![O]⟩ : Shape).Idx → EReal) (n : Fin 5000) (o : Fin O) : head x W b (ix2 n o) = headAt x W b n o := rfl

/-! ## The two spellings of the average -/

/-- The word `0x42440000` is the real number 49. -/
theorem ofBits_49 : Ideal.ofBits .f32 0x42440000#32 = ((49 : ℝ) : EReal) := by
  simp [Ideal.ofBits, Ideal.ieee, -EReal.coe_mul]; norm_num

/-- The sum over the window's pairs of coordinates, started from zero and divided by 49, is the average: the pairs are
    the positions, zero is neutral, and a quotient by 49 is the product with 1/49 on every extended real. -/
theorem div_sum_eq_pooled (x : (⟨4, ![5000, 256, 7, 7]⟩ : Shape).Idx → EReal) (n : Fin 5000) (c : Fin 256) :
    Ideal.div (0 + ∑ p : Fin 7 × Fin 7, x (ix4 n c p.1 p.2)) ((49 : ℝ) : EReal) = pooled x n c := by
  rw [zero_add, Ideal.div_coe (by norm_num : (49 : ℝ) ≠ 0), sum_window (fun a b => x (ix4 n c a b))]
  rfl

end Cert.PoolHeads

end
-- ==== Proof.ClsBlock.lean ====
/-
  The classification head's block, read at an index.

  The body multiplies the 200 × 256 block of averages against the 81 × 256 weight matrix, contracting the channel
  axis of both (the weights are used as stored, output by channel, with no transposed copy), into a zero accumulator,
  and adds the bias row to every sample's row. The change of float format of the weights is the identity on extended
  reals. Read at sample `r` and output `o` the block is
  `∑ c, ((∑ s, slab s (r, c)) · 1/49) · W (o, c) + bias o`.
-/
import proofs.«133133_g13692355740313_cont_week2b_1265_8_alg».proof.Proof.PooledBlock
import proofs.«133133_g13692355740313_cont_week2b_1265_8_alg».proof.Proof.HeadSpec
import Idealize.ShloMosaic.Lib.ValueLayout

noncomputable section

namespace Cert.KernelIdeal.BlockValue

open Cert.KernelIdeal Cert.KernelIdeal.Gen Idealize.ShloMosaic Idealize.ShloMosaic.ValueIdx

/-! ## Where the product reads its operands

  At output index `(r, o)` and channel `k` the left operand is read at `(r, k)` and the right at `(o, k)`: on each
  operand axis 0 is the free axis and axis 1 the contracted one. -/

theorem lhs_cls_0 (i : S200x81.Idx) (q : dot_S200x256_S81x256_S200x81_1_1_0_0_n_n.contr.Idx) :
    (dot_S200x256_S81x256_S200x81_1_1_0_0_n_n.lhsIdx i q 0).val = (i 0).val := by
  unfold DotDims.lhsIdx
  rw [dif_neg (show ¬(0 : Fin S200x256.rank) ∈ dot_S200x256_S81x256_S200x81_1_1_0_0_n_n.lhsBatch by decide), dif_pos (show (0 : Fin S200x256.rank) ∈ dot_S200x256_S81x256_S200x81_1_1_0_0_n_n.lhsNonContracting by decide)]
  rfl
theorem lhs_cls_1 (i : S200x81.Idx) (q : dot_S200x256_S81x256_S200x81_1_1_0_0_n_n.contr.Idx) :
    (dot_S200x256_S81x256_S200x81_1_1_0_0_n_n.lhsIdx i q 1).val = (q ⟨0, by decide⟩).val :=
  dot_S200x256_S81x256_S200x81_1_1_0_0_n_n.lhsIdx_val_of_single rfl i q
theorem rhs_cls_0 (i : S200x81.Idx) (q : dot_S200x256_S81x256_S200x81_1_1_0_0_n_n.contr.Idx) :
    (dot_S200x256_S81x256_S200x81_1_1_0_0_n_n.rhsIdx i q 0).val = (i 1).val := by
  unfold DotDims.rhsIdx
  rw [dif_neg (show ¬(0 : Fin S81x256.rank) ∈ dot_S200x256_S81x256_S200x81_1_1_0_0_n_n.rhsBatch by decide), dif_pos (show (0 : Fin S81x256.rank) ∈ dot_S200x256_S81x256_S200x81_1_1_0_0_n_n.rhsNonContracting by decide)]
  rfl
theorem rhs_cls_1 (i : S200x81.Idx) (q : dot_S200x256_S81x256_S200x81_1_1_0_0_n_n.contr.Idx) :
    (dot_S200x256_S81x256_S200x81_1_1_0_0_n_n.rhsIdx i q 1).val = (q ⟨0, by decide⟩).val :=
  dot_S200x256_S81x256_S200x81_1_1_0_0_n_n.rhsIdx_val_of_single rfl i q

/-! ## The product as a sum over the channels -/

/-- The product into a zero accumulator, read at sample `r` of the block and output `o`: the sum over the 256
    channels of the left operand's row `r` against the right operand's row `o`. -/
theorem cls_matmul_apply (l : FVec Ideal S200x256 .bf16) (w : FVec Ideal S81x256 .bf16) (r : Fin 200) (o : Fin 81) :
    matmul dot_S200x256_S81x256_S200x81_1_1_0_0_n_n none l w (constant (F := Ideal) S200x81 .f32 0x00000000#32) (ix2 r o)
      = ∑ c : Fin 256, l (ix2 r c) * w (ix2 o c) := by
  simp only [matmul]
  rw [Ideal.matmul_constant_zero_apply, ← Equiv.sum_comp (ValueIdx.contrEquiv1 dot_S200x256_S81x256_S200x81_1_1_0_0_n_n 256 rfl rfl).symm]
  refine Finset.sum_congr rfl fun k _ => ?_
  have hk := ValueIdx.contrEquiv1_symm_val dot_S200x256_S81x256_S200x81_1_1_0_0_n_n 256 rfl rfl k
  have el : dot_S200x256_S81x256_S200x81_1_1_0_0_n_n.lhsIdx (ix2 r o) ((ValueIdx.contrEquiv1 dot_S200x256_S81x256_S200x81_1_1_0_0_n_n 256 rfl rfl).symm k) = ix2 r k := funext fun a => Fin.ext (by
    match a with
    | ⟨0, _⟩ => exact lhs_cls_0 _ _
    | ⟨1, _⟩ => exact (lhs_cls_1 _ _).trans hk)
  have er : dot_S200x256_S81x256_S200x81_1_1_0_0_n_n.rhsIdx (ix2 r o) ((ValueIdx.contrEquiv1 dot_S200x256_S81x256_S200x81_1_1_0_0_n_n 256 rfl rfl).symm k) = ix2 o k := funext fun a => Fin.ext (by
    match a with
    | ⟨0, _⟩ => exact rhs_cls_0 _ _
    | ⟨1, _⟩ => exact (rhs_cls_1 _ _).trans hk)
  rw [el, er]

/-! ## The head's block -/

/-- The head's block at sample `r` and output `o`: the block of averages' row `r` against row `o` of the weights,
    plus the bias's entry `o` (the bias is one row, repeated over the samples). -/
theorem clsBlock_apply (v0 : Vec Ideal S49x200x256 .f32) (w : Vec Ideal S81x256 .f32) (b : Vec Ideal S1x81 .f32) (r : Fin 200) (o : Fin 81) :
    k0_pay2 (F := Ideal) v0 w b (ix2 r o)
      = (∑ c : Fin 256, ((∑ s : Fin 49, v0 (ix3 s r c)) * ((1 / 49 : ℝ) : EReal)) * w (ix2 o c)) + b (ix2 (0 : Fin 1) o) := by
  unfold k0_pay2
  rw [addf_apply, shapeCast_self]
  refine congrArg₂ (· + ·) ?_ (broadcastTo_1b_ab_apply _ _ r o)
  refine (cls_matmul_apply _ _ r o).trans (Finset.sum_congr rfl fun c _ => ?_)
  rw [truncf_apply, pooledBlock_apply]

/-- If the slabs' column at the block's sample `y 0` holds feature map `n` of an input `x`, position by position, the
    weights' row `y 1` is row `o` of `W`, and the bias row's entry `y 1` is `bv o`, then the head's block at `y` is the
    head of `x`, `W`, `bv` at sample `n` and output `o`: the two are the same sum of the same products. -/
theorem clsBlock_eq_headAt (v0 : Vec Ideal S49x200x256 .f32) (w : Vec Ideal S81x256 .f32) (b : Vec Ideal S1x81 .f32)
    (x : (⟨4, ![5000, 256, 7, 7]⟩ : Shape).Idx → EReal) (W : (⟨2, ![81, 256]⟩ : Shape).Idx → EReal) (bv : (⟨1, ![81]⟩ : Shape).Idx → EReal)
    (y : S200x81.Idx) (n : Fin 5000) (o : Fin 81)
    (hx : ∀ (s : Fin 49) (c : Fin 256), v0 (ix3 s (y 0) c) = x (ix4 n c (Cert.PoolHeads.winRow s) (Cert.PoolHeads.winCol s)))
    (hw : ∀ c : Fin 256, w (ix2 (y 1) c) = W (ix2 o c)) (hb : b (ix2 (0 : Fin 1) (y 1)) = bv (ix1 o)) :
    k0_pay2 (F := Ideal) v0 w b y = Cert.PoolHeads.headAt x W bv n o := by
  obtain ⟨r, q, rfl⟩ : ∃ (r : Fin 200) (q : Fin 81), y = ix2 r q := ⟨y 0, y 1, eq_ix2 y⟩
  have hx' : ∀ (s : Fin 49) (c : Fin 256), v0 (ix3 s r c) = x (ix4 n c (Cert.PoolHeads.winRow s) (Cert.PoolHeads.winCol s)) := hx
  have hw' : ∀ c : Fin 256, w (ix2 q c) = W (ix2 o c) := hw
  have hb' : b (ix2 (0 : Fin 1) q) = bv (ix1 o) := hb
  rw [clsBlock_apply, hb']
  unfold Cert.PoolHeads.headAt Cert.PoolHeads.pooled
  refine congrArg (· + bv (ix1 o)) (Finset.sum_congr rfl fun c _ => ?_)
  rw [hw' c]
  exact congrArg (fun z => z * ((1 / 49 : ℝ) : EReal) * W (ix2 o c)) (Finset.sum_congr rfl fun s _ => hx' s c)

end Cert.KernelIdeal.BlockValue

end
-- ==== Proof.InputLayout.lean ====
/-
  How the kernel's program lays the input out before the kernel runs.

  The input `x`, indexed (sample, channel, row, column), is transposed to (row, column, sample, channel) and its two
  leading axes are flattened into one axis of 49 window positions. Flattening keeps the row-major order, so position
  `s` is row `s / 7`, column `s % 7`: the array the kernel reads holds, at (s, n, c), the input at
  (n, c, s / 7, s % 7). The two bias vectors are likewise given a leading axis of length one.
-/
import proofs.«133133_g13692355740313_cont_week2b_1265_8_alg».proof.Proof.HeadSpec
import Idealize.ShloMosaic.Lib.Pipeline.Value

noncomputable section

namespace Cert.PoolHeads

open Idealize.ShloMosaic Idealize.ShloMosaic.ValueIdx

variable {α : Type}

/-- The transposed and flattened input at slab `s`, sample `n`, channel `c` is the input at sample `n`, channel `c`,
    row `s / 7`, column `s % 7`: the flattening matches row-major positions, `((a · 7 + b) · 5000 + n) · 256 + c` on
    both sides with `a · 7 + b = s`, and the transpose moves each coordinate to its axis. -/
theorem slabs_apply (x : (⟨4, ![5000, 256, 7, 7]⟩ : Shape).Idx → α)
    (ht : (⟨4, ![5000, 256, 7, 7]⟩ : Shape).Transposes [2, 3, 0, 1] ⟨4, ![7, 7, 5000, 256]⟩)
    (hc : (⟨4, ![7, 7, 5000, 256]⟩ : Shape).ShapeCasts ⟨3, ![49, 5000, 256]⟩) (s : Fin 49) (n : Fin 5000) (c : Fin 256) :
    shapeCast ⟨3, ![49, 5000, 256]⟩ (transpose ⟨4, ![7, 7, 5000, 256]⟩ [2, 3, 0, 1] x ht) hc (ix3 s n c)
      = x (ix4 n c (winRow s) (winCol s)) := by
  refine (shapeCast_apply _ hc (ix3 s n c) (ix4 (winRow s) (winCol s) n c) ?_).trans ?_
  · rw [Shape.rowMajor_val_four, Shape.rowMajor_val_three]
    show (((s.val / 7) * 7 + s.val % 7) * 5000 + n.val) * 256 + c.val = (s.val * 5000 + n.val) * 256 + c.val
    have := s.isLt
    omega
  · exact transpose_apply [2, 3, 0, 1] x ht _ _ fun b => match b with
      | ⟨0, _⟩ => rfl
      | ⟨1, _⟩ => rfl
      | ⟨2, _⟩ => rfl
      | ⟨3, _⟩ => rfl

/-- A vector given a leading axis of length one reads, at `(0, o)`, its entry `o`. -/
theorem biasRow_apply {O : ℕ} (hO : O ≠ 1) (b : (⟨1, ![O]⟩ : Shape).Idx → α)
    (h : (⟨1, ![O]⟩ : Shape).BroadcastsInDim ⟨2, ![1, O]⟩ (![1] : Fin 1 → Fin 2)) (o : Fin O) :
    broadcastInDim ⟨2, ![1, O]⟩ ![1] h b (ix2 (0 : Fin 1) o) = b (ix1 o) :=
  broadcastInDim_apply _ h b _ (ix1 o) fun a => match a with
    | ⟨0, _⟩ => by show o.val = if O = 1 then 0 else o.val; rw [if_neg hO]

end Cert.PoolHeads

end
-- ==== Proof.EntryArrays.lean ====
/-
  The arrays the kernel's windows are cut from, as the kernel finds them.

  Before the kernel runs, the program transposes the input to (row, column, sample, channel), flattens the two leading
  axes into the 49 window positions, and gives each bias vector a leading axis of length one; the weights are passed as
  they are. So the array behind the input window holds, at (s, n, c), the input at (n, c, s / 7, s % 7); the array behind
  each bias window holds, at (0, o), the bias's entry o.
-/
import proofs.«133133_g13692355740313_cont_week2b_1265_8_alg».proof.Proof.Gen.KernelIdeal.Frame
import proofs.«133133_g13692355740313_cont_week2b_1265_8_alg».proof.Proof.InputLayout
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo Cert.PoolHeads

variable (m : (ℓ : Loc nD τ sig) → Buf (Elt Ideal) ℓ)

/-- The array behind the input window is the input, transposed and flattened. -/
theorem slabsArr_eq (c : Dev nD) :
    (V m c main_v1 : S49x5000x256.Idx → EReal)
      = shapeCast S49x5000x256 (transpose S7x7x5000x256 [2, 3, 0, 1] (m ((c : Thread nD τ).loc main_arg0)) transposes_S5000x256x7x7_S7x7x5000x256_2_3_0_1) shapeCasts_S7x7x5000x256_S49x5000x256 := by
  dsimp only [Gen.V, Gen.hostOps0]
  after_results
  rfl

/-- At slab `s`, sample `n`, channel `ch` it holds the input at sample `n`, channel `ch`, row `s / 7`, column `s % 7`. -/
theorem slabsArr_apply (c : Dev nD) (s : Fin 49) (n : Fin 5000) (ch : Fin 256) :
    (V m c main_v1 : S49x5000x256.Idx → EReal) (ix3 s n ch) = m ((c : Thread nD τ).loc main_arg0) (ix4 n ch (winRow s) (winCol s)) :=
  (congrFun (slabsArr_eq m c) (ix3 s n ch)).trans (slabs_apply _ _ _ s n ch)

/-- The array behind the classification bias window is the bias as one row. -/
theorem clsBiasArr_eq (c : Dev nD) :
    (V m c main_v2 : S1x81.Idx → EReal) = broadcastInDim S1x81 ![1] bcast_S81_S1x81_1 (m ((c : Thread nD τ).loc main_arg2)) := by
  dsimp only [Gen.V, Gen.hostOps0]
  after_results

theorem clsBiasArr_apply (c : Dev nD) (o : Fin 81) :
    (V m c main_v2 : S1x81.Idx → EReal) (ix2 (0 : Fin 1) o) = m ((c : Thread nD τ).loc main_arg2) (ix1 o) :=
  (congrFun (clsBiasArr_eq m c) (ix2 (0 : Fin 1) o)).trans (biasRow_apply (by decide) _ _ o)

/-- The array behind the regression bias window is the bias as one row. -/
theorem regBiasArr_eq (c : Dev nD) :
    (V m c main_v3 : S1x324.Idx → EReal) = broadcastInDim S1x324 ![1] bcast_S324_S1x324_1 (m ((c : Thread nD τ).loc main_arg4)) := by
  dsimp only [Gen.V, Gen.hostOps0]
  after_results

theorem regBiasArr_apply (c : Dev nD) (o : Fin 324) :
    (V m c main_v3 : S1x324.Idx → EReal) (ix2 (0 : Fin 1) o) = m ((c : Thread nD τ).loc main_arg4) (ix1 o) :=
  (congrFun (regBiasArr_eq m c) (ix2 (0 : Fin 1) o)).trans (biasRow_apply (by decide) _ _ o)

end Cert.KernelIdeal.ArrayValue

end
-- ==== Proof.ClsArray.lean ====
/-
  The classification head's result array after the kernel has run.

  The kernel runs over 25 grid points. At point `t` it reads samples 200 t … 200 t + 199 of the flattened input (all
  49 slabs, all 256 channels), the whole weight matrix and the whole bias row, and writes rows 200 t … 200 t + 199 of
  the result. What it writes at row `r` of the block, output `o`, is the head of the input at sample 200 t + r, output
  `o`: the block's slabs at `(s, r, c)` are the flattened input at `(s, 200 t + r, c)`, which is the input at
  `(200 t + r, c, s / 7, s % 7)`. The 25 blocks of 200 rows tile the 5000 rows, so the whole array ends as the head.
-/
import proofs.«133133_g13692355740313_cont_week2b_1265_8_alg».proof.Proof.Gen.KernelIdeal.Value
import proofs.«133133_g13692355740313_cont_week2b_1265_8_alg».proof.Proof.ClsBlock
import proofs.«133133_g13692355740313_cont_week2b_1265_8_alg».proof.Proof.EntryArrays

noncomputable section

namespace Cert.KernelIdeal.ArrayValue

open Cert.KernelIdeal Cert.KernelIdeal.Gen Idealize.ShloMosaic Idealize.ShloMosaic.TcCoe Idealize.SL.Sem
open Idealize.ShloMosaic.ValueIdx Cert.PoolHeads Cert.KernelIdeal.BlockValue
open Idealize.ShloMosaic.Pipeline (Dat)

variable (m : (ℓ : Loc nD τ sig) → Buf (Elt Ideal) ℓ) (ρ : Dev nD → PrngReg)

theorem cls_hz2 : (![0, 0] : Fin 2 → Nat) = fun _ => 0 := funext fun a => by fin_cases a <;> rfl
theorem cls_hz3 : (![0, 0, 0] : Fin 3 → Nat) = fun _ => 0 := funext fun a => by fin_cases a <;> rfl

/-- The block indices at point `t`, decided over the 25 points: the input window moves along its sample axis with the
    result window, at block `t`; the weights' and the bias's windows stay at block 0. -/
theorem cls_idx_facts : ∀ t : Fin cfg0.N, win0_0.index t (0 : Fin 3) = 0
    ∧ win0_0.index t (1 : Fin 3) = win0_5.index t (0 : Fin 2)
    ∧ win0_0.index t (2 : Fin 3) = 0
    ∧ win0_1.index t (0 : Fin 2) = 0 ∧ win0_1.index t (1 : Fin 2) = 0
    ∧ win0_3.index t (0 : Fin 2) = 0 ∧ win0_3.index t (1 : Fin 2) = 0
    ∧ win0_5.index t (0 : Fin 2) = t.val ∧ win0_5.index t (1 : Fin 2) = 0 :=
  (by decide +kernel : ∀ t : Fin grid0.N, _)

/-- What point `t` writes back is block `t` of the head of the argument arrays. -/
theorem clsFlushed_eq (c : Dev nD) (t : Fin cfg0.N) :
    (dats m 0 c).flushed 5 t = ((cfg0.win 5).blk t).view.read (Elt Ideal)
      (head (m ((c : Thread nD τ).loc main_arg0)) (m ((c : Thread nD τ).loc main_arg1)) (m ((c : Thread nD τ).loc main_arg2))) := by
  rw [Value.flushed5]
  unfold out0_5
  rw [View.canon_unit_zero cls_hz2]
  simp only [View.ld_unit_zero (S := S49x200x256) cls_hz3, View.ld_unit_zero (S := S81x256) cls_hz2, View.ld_unit_zero (S := S1x81) cls_hz2]
  obtain ⟨e00, e01, e02, e10, e11, e30, e31, e50, e51⟩ := cls_idx_facts t
  funext j
  have hj0 : (j 0).val < 200 := (j 0).isLt
  have hj1 : (j 1).val < 81 := (j 1).isLt
  have ht : t.val < 25 := N_0 ▸ t.isLt
  -- the block's entry `j` sits in the array at row `200 t + j 0`, column `j 1`
  have hemb : ((cfg0.win 5).blk t).view.emb j
      = ix2 (⟨t.val * 200 + (j 0).val, by omega⟩ : Fin 5000) (⟨(j 1).val, hj1⟩ : Fin 81) := by
    funext a; apply Fin.ext
    match a with
    | ⟨0, _⟩ => show win0_5.index t (0 : Fin 2) * 200 + 1 * (j 0).val = t.val * 200 + (j 0).val; omega
    | ⟨1, _⟩ => show win0_5.index t (1 : Fin 2) * 81 + 1 * (j 1).val = (j 1).val; omega
  show k0_pay2 (F := Ideal) (iblk m c 0 t) (iblk m c 1 t) (iblk m c 3 t) j
    = head (m ((c : Thread nD τ).loc main_arg0)) (m ((c : Thread nD τ).loc main_arg1)) (m ((c : Thread nD τ).loc main_arg2)) (((cfg0.win 5).blk t).view.emb j)
  rw [hemb, head_ix2]
  refine clsBlock_eq_headAt (iblk m c 0 t) (iblk m c 1 t) (iblk m c 3 t) _ _ _ j _ _ ?_ ?_ ?_
  · -- the slabs' column at the block's sample is the flattened input's at sample `200 t + j 0`
    intro s ch
    show V m c main_v1 (((cfg0.win 0).blk t).view.emb (ix3 s (j 0) ch)) = _
    refine (congrArg (V m c main_v1) (?_ : _ = ix3 s (⟨t.val * 200 + (j 0).val, by omega⟩ : Fin 5000) ch)).trans (slabsArr_apply m c s _ ch)
    funext a; apply Fin.ext
    match a with
    | ⟨0, _⟩ => show win0_0.index t (0 : Fin 3) * 49 + 1 * s.val = s.val; omega
    | ⟨1, _⟩ => show win0_0.index t (1 : Fin 3) * 200 + 1 * (j 0).val = t.val * 200 + (j 0).val; omega
    | ⟨2, _⟩ => show win0_0.index t (2 : Fin 3) * 256 + 1 * ch.val = ch.val; omega
  · -- the weights' block is the whole weight matrix
    intro ch
    show V m c main_arg1 (((cfg0.win 1).blk t).view.emb (ix2 (j 1) ch)) = _
    rw [V_main_arg1]
    refine congrArg (m ((c : Thread nD τ).loc main_arg1)) ?_
    funext a; apply Fin.ext
    match a with
    | ⟨0, _⟩ => show win0_1.index t (0 : Fin 2) * 81 + 1 * (j 1).val = (j 1).val; omega
    | ⟨1, _⟩ => show win0_1.index t (1 : Fin 2) * 256 + 1 * ch.val = ch.val; omega
  · -- the bias's block is the whole bias row
    show V m c main_v2 (((cfg0.win 3).blk t).view.emb (ix2 (0 : Fin 1) (j 1))) = _
    refine (congrArg (V m c main_v2) (?_ : _ = ix2 (0 : Fin 1) (⟨(j 1).val, hj1⟩ : Fin 81))).trans (clsBiasArr_apply m c _)
    funext a; apply Fin.ext
    match a with
    | ⟨0, _⟩ => show win0_3.index t (0 : Fin 2) * 1 + 1 * 0 = 0; omega
    | ⟨1, _⟩ => show win0_3.index t (1 : Fin 2) * 81 + 1 * (j 1).val = (j 1).val; omega

/-- An index of the result array is in point `t`'s block iff each coordinate is in the block's range on its axis. -/
theorem cls_mem_blk (t : Fin cfg0.N) (i : S5000x81.Idx) :
    i ∈ ((cfg0.win 5).blk t).view.set ↔ ∀ a : Fin 2, win0_5.index t a * S200x81.size a ≤ (i a).val ∧ (i a).val < win0_5.index t a * S200x81.size a + S200x81.size a := by
  show i ∈ ((View.whole main_v4_0).slice (win0_5.rect t)).set ↔ _
  rw [View.set_slice_whole, Rect.mem_set_unit]
  exact Iff.rfl

/-- Every index of the result array is in some point's block: row `n` is in the block of point `n / 200`. -/
theorem cls_cover (i : S5000x81.Idx) : ∃ t : Fin cfg0.N, (cfg0.win 5).flush t = true ∧ i ∈ ((cfg0.win 5).blk t).view.set := by
  have hi0 : (i 0).val < 5000 := (i 0).isLt
  have hi1 : (i 1).val < 81 := (i 1).isLt
  have hN : cfg0.N = 25 := N_0
  obtain ⟨t, htv⟩ : ∃ t : Fin cfg0.N, t.val = (i 0).val / 200 := ⟨⟨(i 0).val / 200, by rw [hN]; omega⟩, rfl⟩
  obtain ⟨-, -, -, -, -, -, -, e50, e51⟩ := cls_idx_facts t
  refine ⟨t, flush0_5 t, ?_⟩
  rw [cls_mem_blk]
  intro a
  match a with
  | ⟨0, _⟩ => show win0_5.index t (0 : Fin 2) * 200 ≤ (i 0).val ∧ (i 0).val < win0_5.index t (0 : Fin 2) * 200 + 200; omega
  | ⟨1, _⟩ => show win0_5.index t (1 : Fin 2) * 81 ≤ (i 1).val ∧ (i 1).val < win0_5.index t (1 : Fin 2) * 81 + 81; omega

/-- The result array after the run is the head of the argument arrays. -/
theorem clsFinal (c : Dev nD) :
    (dats m 0 c).arrAt 5 cfg0.N = head (m ((c : Thread nD τ).loc main_arg0)) (m ((c : Thread nD τ).loc main_arg1)) (m ((c : Thread nD τ).loc main_arg2)) :=
  (dats m 0 c).arrAt_eq_of_cover 5 _ (fun t _ => clsFlushed_eq m c t) cls_cover

end Cert.KernelIdeal.ArrayValue

end
-- ==== Proof.RegBlock.lean ====
/-
  The regression head's block, read at an index.

  The body multiplies the 200 × 256 block of averages against the 324 × 256 weight matrix, contracting the channel
  axis of both (the weights are used as stored, output by channel, with no transposed copy), into a zero accumulator,
  and adds the bias row to every sample's row. The change of float format of the weights is the identity on extended
  reals. Read at sample `r` and output `o` the block is
  `∑ c, ((∑ s, slab s (r, c)) · 1/49) · W (o, c) + bias o`.
-/
import proofs.«133133_g13692355740313_cont_week2b_1265_8_alg».proof.Proof.PooledBlock
import proofs.«133133_g13692355740313_cont_week2b_1265_8_alg».proof.Proof.HeadSpec
import Idealize.ShloMosaic.Lib.ValueLayout

noncomputable section

namespace Cert.KernelIdeal.BlockValue

open Cert.KernelIdeal Cert.KernelIdeal.Gen Idealize.ShloMosaic Idealize.ShloMosaic.ValueIdx

/-! ## Where the product reads its operands

  At output index `(r, o)` and channel `k` the left operand is read at `(r, k)` and the right at `(o, k)`: on each
  operand axis 0 is the free axis and axis 1 the contracted one. -/

theorem lhs_reg_0 (i : S200x324.Idx) (q : dot_S200x256_S324x256_S200x324_1_1_0_0_n_n.contr.Idx) :
    (dot_S200x256_S324x256_S200x324_1_1_0_0_n_n.lhsIdx i q 0).val = (i 0).val := by
  unfold DotDims.lhsIdx
  rw [dif_neg (show ¬(0 : Fin S200x256.rank) ∈ dot_S200x256_S324x256_S200x324_1_1_0_0_n_n.lhsBatch by decide), dif_pos (show (0 : Fin S200x256.rank) ∈ dot_S200x256_S324x256_S200x324_1_1_0_0_n_n.lhsNonContracting by decide)]
  rfl
theorem lhs_reg_1 (i : S200x324.Idx) (q : dot_S200x256_S324x256_S200x324_1_1_0_0_n_n.contr.Idx) :
    (dot_S200x256_S324x256_S200x324_1_1_0_0_n_n.lhsIdx i q 1).val = (q ⟨0, by decide⟩).val :=
  dot_S200x256_S324x256_S200x324_1_1_0_0_n_n.lhsIdx_val_of_single rfl i q
theorem rhs_reg_0 (i : S200x324.Idx) (q : dot_S200x256_S324x256_S200x324_1_1_0_0_n_n.contr.Idx) :
    (dot_S200x256_S324x256_S200x324_1_1_0_0_n_n.rhsIdx i q 0).val = (i 1).val := by
  unfold DotDims.rhsIdx
  rw [dif_neg (show ¬(0 : Fin S324x256.rank) ∈ dot_S200x256_S324x256_S200x324_1_1_0_0_n_n.rhsBatch by decide), dif_pos (show (0 : Fin S324x256.rank) ∈ dot_S200x256_S324x256_S200x324_1_1_0_0_n_n.rhsNonContracting by decide)]
  rfl
theorem rhs_reg_1 (i : S200x324.Idx) (q : dot_S200x256_S324x256_S200x324_1_1_0_0_n_n.contr.Idx) :
    (dot_S200x256_S324x256_S200x324_1_1_0_0_n_n.rhsIdx i q 1).val = (q ⟨0, by decide⟩).val :=
  dot_S200x256_S324x256_S200x324_1_1_0_0_n_n.rhsIdx_val_of_single rfl i q

/-! ## The product as a sum over the channels -/

/-- The product into a zero accumulator, read at sample `r` of the block and output `o`: the sum over the 256
    channels of the left operand's row `r` against the right operand's row `o`. -/
theorem reg_matmul_apply (l : FVec Ideal S200x256 .bf16) (w : FVec Ideal S324x256 .bf16) (r : Fin 200) (o : Fin 324) :
    matmul dot_S200x256_S324x256_S200x324_1_1_0_0_n_n none l w (constant (F := Ideal) S200x324 .f32 0x00000000#32) (ix2 r o)
      = ∑ c : Fin 256, l (ix2 r c) * w (ix2 o c) := by
  simp only [matmul]
  rw [Ideal.matmul_constant_zero_apply, ← Equiv.sum_comp (ValueIdx.contrEquiv1 dot_S200x256_S324x256_S200x324_1_1_0_0_n_n 256 rfl rfl).symm]
  refine Finset.sum_congr rfl fun k _ => ?_
  have hk := ValueIdx.contrEquiv1_symm_val dot_S200x256_S324x256_S200x324_1_1_0_0_n_n 256 rfl rfl k
  have el : dot_S200x256_S324x256_S200x324_1_1_0_0_n_n.lhsIdx (ix2 r o) ((ValueIdx.contrEquiv1 dot_S200x256_S324x256_S200x324_1_1_0_0_n_n 256 rfl rfl).symm k) = ix2 r k := funext fun a => Fin.ext (by
    match a with
    | ⟨0, _⟩ => exact lhs_reg_0 _ _
    | ⟨1, _⟩ => exact (lhs_reg_1 _ _).trans hk)
  have er : dot_S200x256_S324x256_S200x324_1_1_0_0_n_n.rhsIdx (ix2 r o) ((ValueIdx.contrEquiv1 dot_S200x256_S324x256_S200x324_1_1_0_0_n_n 256 rfl rfl).symm k) = ix2 o k := funext fun a => Fin.ext (by
    match a with
    | ⟨0, _⟩ => exact rhs_reg_0 _ _
    | ⟨1, _⟩ => exact (rhs_reg_1 _ _).trans hk)
  rw [el, er]

/-! ## The head's block -/

/-- The head's block at sample `r` and output `o`: the block of averages' row `r` against row `o` of the weights,
    plus the bias's entry `o` (the bias is one row, repeated over the samples). -/
theorem regBlock_apply (v0 : Vec Ideal S49x200x256 .f32) (w : Vec Ideal S324x256 .f32) (b : Vec Ideal S1x324 .f32) (r : Fin 200) (o : Fin 324) :
    k0_pay3 (F := Ideal) v0 w b (ix2 r o)
      = (∑ c : Fin 256, ((∑ s : Fin 49, v0 (ix3 s r c)) * ((1 / 49 : ℝ) : EReal)) * w (ix2 o c)) + b (ix2 (0 : Fin 1) o) := by
  unfold k0_pay3
  rw [addf_apply, shapeCast_self]
  refine congrArg₂ (· + ·) ?_ (broadcastTo_1b_ab_apply _ _ r o)
  refine (reg_matmul_apply _ _ r o).trans (Finset.sum_congr rfl fun c _ => ?_)
  rw [truncf_apply, pooledBlock_apply]

/-- If the slabs' column at the block's sample `y 0` holds feature map `n` of an input `x`, position by position, the
    weights' row `y 1` is row `o` of `W`, and the bias row's entry `y 1` is `bv o`, then the head's block at `y` is the
    head of `x`, `W`, `bv` at sample `n` and output `o`: the two are the same sum of the same products. -/
theorem regBlock_eq_headAt (v0 : Vec Ideal S49x200x256 .f32) (w : Vec Ideal S324x256 .f32) (b : Vec Ideal S1x324 .f32)
    (x : (⟨4, ![5000, 256, 7, 7]⟩ : Shape).Idx → EReal) (W : (⟨2, ![324, 256]⟩ : Shape).Idx → EReal) (bv : (⟨1, ![324]⟩ : Shape).Idx → EReal)
    (y : S200x324.Idx) (n : Fin 5000) (o : Fin 324)
    (hx : ∀ (s : Fin 49) (c : Fin 256), v0 (ix3 s (y 0) c) = x (ix4 n c (Cert.PoolHeads.winRow s) (Cert.PoolHeads.winCol s)))
    (hw : ∀ c : Fin 256, w (ix2 (y 1) c) = W (ix2 o c)) (hb : b (ix2 (0 : Fin 1) (y 1)) = bv (ix1 o)) :
    k0_pay3 (F := Ideal) v0 w b y = Cert.PoolHeads.headAt x W bv n o := by
  obtain ⟨r, q, rfl⟩ : ∃ (r : Fin 200) (q : Fin 324), y = ix2 r q := ⟨y 0, y 1, eq_ix2 y⟩
  have hx' : ∀ (s : Fin 49) (c : Fin 256), v0 (ix3 s r c) = x (ix4 n c (Cert.PoolHeads.winRow s) (Cert.PoolHeads.winCol s)) := hx
  have hw' : ∀ c : Fin 256, w (ix2 q c) = W (ix2 o c) := hw
  have hb' : b (ix2 (0 : Fin 1) q) = bv (ix1 o) := hb
  rw [regBlock_apply, hb']
  unfold Cert.PoolHeads.headAt Cert.PoolHeads.pooled
  refine congrArg (· + bv (ix1 o)) (Finset.sum_congr rfl fun c _ => ?_)
  rw [hw' c]
  exact congrArg (fun z => z * ((1 / 49 : ℝ) : EReal) * W (ix2 o c)) (Finset.sum_congr rfl fun s _ => hx' s c)

end Cert.KernelIdeal.BlockValue

end
-- ==== Proof.RegArray.lean ====
/-
  The regression head's result array after the kernel has run.

  The kernel runs over 25 grid points. At point `t` it reads samples 200 t … 200 t + 199 of the flattened input (all
  49 slabs, all 256 channels), the whole weight matrix and the whole bias row, and writes rows 200 t … 200 t + 199 of
  the result. What it writes at row `r` of the block, output `o`, is the head of the input at sample 200 t + r, output
  `o`: the block's slabs at `(s, r, c)` are the flattened input at `(s, 200 t + r, c)`, which is the input at
  `(200 t + r, c, s / 7, s % 7)`. The 25 blocks of 200 rows tile the 5000 rows, so the whole array ends as the head.
-/
import proofs.«133133_g13692355740313_cont_week2b_1265_8_alg».proof.Proof.Gen.KernelIdeal.Value
import proofs.«133133_g13692355740313_cont_week2b_1265_8_alg».proof.Proof.RegBlock
import proofs.«133133_g13692355740313_cont_week2b_1265_8_alg».proof.Proof.EntryArrays

noncomputable section

namespace Cert.KernelIdeal.ArrayValue

open Cert.KernelIdeal Cert.KernelIdeal.Gen Idealize.ShloMosaic Idealize.ShloMosaic.TcCoe Idealize.SL.Sem
open Idealize.ShloMosaic.ValueIdx Cert.PoolHeads Cert.KernelIdeal.BlockValue
open Idealize.ShloMosaic.Pipeline (Dat)

variable (m : (ℓ : Loc nD τ sig) → Buf (Elt Ideal) ℓ) (ρ : Dev nD → PrngReg)

theorem reg_hz2 : (![0, 0] : Fin 2 → Nat) = fun _ => 0 := funext fun a => by fin_cases a <;> rfl
theorem reg_hz3 : (![0, 0, 0] : Fin 3 → Nat) = fun _ => 0 := funext fun a => by fin_cases a <;> rfl

/-- The block indices at point `t`, decided over the 25 points: the input window moves along its sample axis with the
    result window, at block `t`; the weights' and the bias's windows stay at block 0. -/
theorem reg_idx_facts : ∀ t : Fin cfg0.N, win0_0.index t (0 : Fin 3) = 0
    ∧ win0_0.index t (1 : Fin 3) = win0_6.index t (0 : Fin 2)
    ∧ win0_0.index t (2 : Fin 3) = 0
    ∧ win0_2.index t (0 : Fin 2) = 0 ∧ win0_2.index t (1 : Fin 2) = 0
    ∧ win0_4.index t (0 : Fin 2) = 0 ∧ win0_4.index t (1 : Fin 2) = 0
    ∧ win0_6.index t (0 : Fin 2) = t.val ∧ win0_6.index t (1 : Fin 2) = 0 :=
  (by decide +kernel : ∀ t : Fin grid0.N, _)

/-- What point `t` writes back is block `t` of the head of the argument arrays. -/
theorem regFlushed_eq (c : Dev nD) (t : Fin cfg0.N) :
    (dats m 0 c).flushed 6 t = ((cfg0.win 6).blk t).view.read (Elt Ideal)
      (head (m ((c : Thread nD τ).loc main_arg0)) (m ((c : Thread nD τ).loc main_arg3)) (m ((c : Thread nD τ).loc main_arg4))) := by
  rw [Value.flushed6]
  unfold out0_6
  rw [View.canon_unit_zero reg_hz2]
  simp only [View.ld_unit_zero (S := S49x200x256) reg_hz3, View.ld_unit_zero (S := S324x256) reg_hz2, View.ld_unit_zero (S := S1x324) reg_hz2]
  obtain ⟨e00, e01, e02, e10, e11, e30, e31, e50, e51⟩ := reg_idx_facts t
  funext j
  have hj0 : (j 0).val < 200 := (j 0).isLt
  have hj1 : (j 1).val < 324 := (j 1).isLt
  have ht : t.val < 25 := N_0 ▸ t.isLt
  -- the block's entry `j` sits in the array at row `200 t + j 0`, column `j 1`
  have hemb : ((cfg0.win 6).blk t).view.emb j
      = ix2 (⟨t.val * 200 + (j 0).val, by omega⟩ : Fin 5000) (⟨(j 1).val, hj1⟩ : Fin 324) := by
    funext a; apply Fin.ext
    match a with
    | ⟨0, _⟩ => show win0_6.index t (0 : Fin 2) * 200 + 1 * (j 0).val = t.val * 200 + (j 0).val; omega
    | ⟨1, _⟩ => show win0_6.index t (1 : Fin 2) * 324 + 1 * (j 1).val = (j 1).val; omega
  show k0_pay3 (F := Ideal) (iblk m c 0 t) (iblk m c 2 t) (iblk m c 4 t) j
    = head (m ((c : Thread nD τ).loc main_arg0)) (m ((c : Thread nD τ).loc main_arg3)) (m ((c : Thread nD τ).loc main_arg4)) (((cfg0.win 6).blk t).view.emb j)
  rw [hemb, head_ix2]
  refine regBlock_eq_headAt (iblk m c 0 t) (iblk m c 2 t) (iblk m c 4 t) _ _ _ j _ _ ?_ ?_ ?_
  · -- the slabs' column at the block's sample is the flattened input's at sample `200 t + j 0`
    intro s ch
    show V m c main_v1 (((cfg0.win 0).blk t).view.emb (ix3 s (j 0) ch)) = _
    refine (congrArg (V m c main_v1) (?_ : _ = ix3 s (⟨t.val * 200 + (j 0).val, by omega⟩ : Fin 5000) ch)).trans (slabsArr_apply m c s _ ch)
    funext a; apply Fin.ext
    match a with
    | ⟨0, _⟩ => show win0_0.index t (0 : Fin 3) * 49 + 1 * s.val = s.val; omega
    | ⟨1, _⟩ => show win0_0.index t (1 : Fin 3) * 200 + 1 * (j 0).val = t.val * 200 + (j 0).val; omega
    | ⟨2, _⟩ => show win0_0.index t (2 : Fin 3) * 256 + 1 * ch.val = ch.val; omega
  · -- the weights' block is the whole weight matrix
    intro ch
    show V m c main_arg3 (((cfg0.win 2).blk t).view.emb (ix2 (j 1) ch)) = _
    rw [V_main_arg3]
    refine congrArg (m ((c : Thread nD τ).loc main_arg3)) ?_
    funext a; apply Fin.ext
    match a with
    | ⟨0, _⟩ => show win0_2.index t (0 : Fin 2) * 324 + 1 * (j 1).val = (j 1).val; omega
    | ⟨1, _⟩ => show win0_2.index t (1 : Fin 2) * 256 + 1 * ch.val = ch.val; omega
  · -- the bias's block is the whole bias row
    show V m c main_v3 (((cfg0.win 4).blk t).view.emb (ix2 (0 : Fin 1) (j 1))) = _
    refine (congrArg (V m c main_v3) (?_ : _ = ix2 (0 : Fin 1) (⟨(j 1).val, hj1⟩ : Fin 324))).trans (regBiasArr_apply m c _)
    funext a; apply Fin.ext
    match a with
    | ⟨0, _⟩ => show win0_4.index t (0 : Fin 2) * 1 + 1 * 0 = 0; omega
    | ⟨1, _⟩ => show win0_4.index t (1 : Fin 2) * 324 + 1 * (j 1).val = (j 1).val; omega

/-- An index of the result array is in point `t`'s block iff each coordinate is in the block's range on its axis. -/
theorem reg_mem_blk (t : Fin cfg0.N) (i : S5000x324.Idx) :
    i ∈ ((cfg0.win 6).blk t).view.set ↔ ∀ a : Fin 2, win0_6.index t a * S200x324.size a ≤ (i a).val ∧ (i a).val < win0_6.index t a * S200x324.size a + S200x324.size a := by
  show i ∈ ((View.whole main_v4_1).slice (win0_6.rect t)).set ↔ _
  rw [View.set_slice_whole, Rect.mem_set_unit]
  exact Iff.rfl

/-- Every index of the result array is in some point's block: row `n` is in the block of point `n / 200`. -/
theorem reg_cover (i : S5000x324.Idx) : ∃ t : Fin cfg0.N, (cfg0.win 6).flush t = true ∧ i ∈ ((cfg0.win 6).blk t).view.set := by
  have hi0 : (i 0).val < 5000 := (i 0).isLt
  have hi1 : (i 1).val < 324 := (i 1).isLt
  have hN : cfg0.N = 25 := N_0
  obtain ⟨t, htv⟩ : ∃ t : Fin cfg0.N, t.val = (i 0).val / 200 := ⟨⟨(i 0).val / 200, by rw [hN]; omega⟩, rfl⟩
  obtain ⟨-, -, -, -, -, -, -, e50, e51⟩ := reg_idx_facts t
  refine ⟨t, flush0_6 t, ?_⟩
  rw [reg_mem_blk]
  intro a
  match a with
  | ⟨0, _⟩ => show win0_6.index t (0 : Fin 2) * 200 ≤ (i 0).val ∧ (i 0).val < win0_6.index t (0 : Fin 2) * 200 + 200; omega
  | ⟨1, _⟩ => show win0_6.index t (1 : Fin 2) * 324 ≤ (i 1).val ∧ (i 1).val < win0_6.index t (1 : Fin 2) * 324 + 324; omega

/-- The result array after the run is the head of the argument arrays. -/
theorem regFinal (c : Dev nD) :
    (dats m 0 c).arrAt 6 cfg0.N = head (m ((c : Thread nD τ).loc main_arg0)) (m ((c : Thread nD τ).loc main_arg3)) (m ((c : Thread nD τ).loc main_arg4)) :=
  (dats m 0 c).arrAt_eq_of_cover 6 _ (fun t _ => regFlushed_eq m c t) reg_cover

end Cert.KernelIdeal.ArrayValue

end
-- ==== Proof.RefPool.lean ====
/-
  The reference's average, read at an index.

  The reference sums the input over its row and column axes, starting from zero, and divides by 49. At sample `n` and
  channel `c` the sum runs over the input's indices whose first two coordinates are `(n, c)`: these are `(n, c, a, b)`
  for the 7 × 7 pairs `(a, b)`. The quotient by 49 of that sum is the average as the specification spells it.
-/
import proofs.«133133_g13692355740313_cont_week2b_1265_8_alg».proof.Proof.Gen.ReferenceIdeal.Read
import proofs.«133133_g13692355740313_cont_week2b_1265_8_alg».proof.Proof.HeadSpec
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx Cert.PoolHeads

/-- The input's indices that keep `(n, c)` when the row and column coordinates are dropped are `(n, c, a, b)` over the
    pairs `(a, b)`; so the sum over them is the sum over the pairs. -/
theorem sum_filter_drop_window (h : (⟨4, ![5000, 256, 7, 7]⟩ : Shape).ReducesTo [2, 3] ⟨2, ![5000, 256]⟩)
    (x : (⟨4, ![5000, 256, 7, 7]⟩ : Shape).Idx → EReal) (n : Fin 5000) (c : Fin 256) :
    ∑ i ∈ Finset.univ.filter (fun i => h.drop i = ix2 n c), x i = ∑ p : Fin 7 × Fin 7, x (ix4 n c p.1 p.2) := by
  have hleft : ∀ i ∈ Finset.univ.filter (fun i => h.drop i = ix2 n c), ix4 n c (i 2) (i 3) = i := by
    intro i hi
    have hj := (Finset.mem_filter.1 hi).2
    have h0 : (i 0).val = n.val :=
      (h.drop_apply_val_of_eq i 0 0).symm.trans (congrArg (fun j : (⟨2, ![5000, 256]⟩ : Shape).Idx => (j 0).val) hj)
    have h1 : (i 1).val = c.val :=
      (h.drop_apply_val_of_eq i 1 1).symm.trans (congrArg (fun j : (⟨2, ![5000, 256]⟩ : Shape).Idx => (j 1).val) hj)
    funext a; apply Fin.ext
    match a with
    | ⟨0, _⟩ => exact h0.symm
    | ⟨1, _⟩ => exact h1.symm
    | ⟨2, _⟩ => rfl
    | ⟨3, _⟩ => rfl
  refine Finset.sum_nbij' (fun i => ((i 2, i 3) : Fin 7 × Fin 7)) (fun p => ix4 n c p.1 p.2) ?_ ?_ hleft ?_ ?_
  · intro i _; exact Finset.mem_univ _
  · intro p _
    refine Finset.mem_filter.2 ⟨Finset.mem_univ _, ?_⟩
    funext b; apply Fin.ext
    match b with
    | ⟨0, _⟩ => exact h.drop_apply_val_of_eq _ 0 0
    | ⟨1, _⟩ => exact h.drop_apply_val_of_eq _ 1 1
  · intro p _; rfl
  · intro i hi; exact congrArg x (hleft i hi).symm

/-- The reference's sum over rows and columns at `(n, c)`: zero plus the sum over the window's pairs. -/
theorem windowSum_apply (x : (⟨S5000x256x7x7, .f32⟩ : BufTy).Contents (Elt Ideal)) (n : Fin 5000) (c : Fin 256) :
    val_main_v0 (F := Ideal) x (ix2 n c) = 0 + ∑ p : Fin 7 × Fin 7, x (ix4 n c p.1 p.2) := by
  unfold val_main_v0 val_main_cst
  show Ideal.ofBits .f32 0x00000000#32 + ∑ i ∈ Finset.univ.filter (fun i => reducesTo_S5000x256x7x7_S5000x256_d2_3.drop i = ix2 n c), x i = _
  rw [Ideal.ofBits_zero_f32, sum_filter_drop_window]

/-- The reference's quotient at `(n, c)` is the average. -/
theorem pooledRef_apply (x : (⟨S5000x256x7x7, .f32⟩ : BufTy).Contents (Elt Ideal)) (n : Fin 5000) (c : Fin 256) :
    val_main_v2 (F := Ideal) x (ix2 n c) = pooled x n c := by
  rw [val_main_v2_apply, val_main_v1_apply, val_main_cst_0_apply, windowSum_apply]
  show Ideal.div _ (Ideal.ofBits .f32 0x42440000#32) = _
  rw [ofBits_49]
  exact div_sum_eq_pooled x n c

end Cert.ReferenceIdeal.RefValue

end
-- ==== Proof.RefCls.lean ====
/-
  The reference's classification scores are the head of its arguments.

  The reference multiplies the averages against the transposed weights and adds the bias, repeated over the samples.
  Read at sample `n` and output `o`: the product is the sum over the channels `k` of average(n, k) times the
  transposed weights at (k, o), which is the weights at (o, k); the repeated bias at (n, o) is the bias at `o`.
-/
import proofs.«133133_g13692355740313_cont_week2b_1265_8_alg».proof.Proof.RefPool

noncomputable section

namespace Cert.ReferenceIdeal.RefValue

open Cert.ReferenceIdeal Cert.ReferenceIdeal.Gen Cert.ReferenceIdeal.Read Idealize.ShloMosaic Idealize.ShloMosaic.ValueIdx Cert.PoolHeads

theorem cls_eq_head (x0 : (⟨S5000x256x7x7, .f32⟩ : BufTy).Contents (Elt Ideal)) (x1 : (⟨S81x256, .f32⟩ : BufTy).Contents (Elt Ideal))
    (x2 : (⟨S81, .f32⟩ : BufTy).Contents (Elt Ideal)) :
    val_main_v7 (F := Ideal) x0 x1 x2 = head x0 x1 x2 := by
  funext i
  obtain ⟨n, o, rfl⟩ : ∃ (n : Fin 5000) (o : Fin 81), i = ix2 n o := ⟨i 0, i 1, eq_ix2 i⟩
  rw [val_main_v7_apply, Ideal.addf_def, val_main_v4_apply, val_main_v6_apply, val_main_v5_apply, head_ix2]
  unfold headAt
  refine congrArg₂ (· + ·) (Finset.sum_congr rfl fun k _ => ?_) ?_
  · have e1 : lidx_main_v4 (ix2 n o) k = ix2 n k := funext fun a => Fin.ext (by
      match a with
      | ⟨0, _⟩ => rfl
      | ⟨1, _⟩ => rfl)
    have e2 : idx_main_v3 (ridx_main_v4 (ix2 n o) k) = ix2 o k := funext fun a => Fin.ext (by
      match a with
      | ⟨0, _⟩ => rfl
      | ⟨1, _⟩ => rfl)
    rw [val_main_v3_apply, e1, e2, pooledRef_apply]
  · exact congrArg x2 (funext fun a => Fin.ext (by
      match a with
      | ⟨0, _⟩ => rfl))

end Cert.ReferenceIdeal.RefValue

end
-- ==== Proof.RefReg.lean ====
/-
  The reference's regression outputs are the head of its arguments.

  The reference multiplies the averages against the transposed weights and adds the bias, repeated over the samples.
  Read at sample `n` and output `o`: the product is the sum over the channels `k` of average(n, k) times the
  transposed weights at (k, o), which is the weights at (o, k); the repeated bias at (n, o) is the bias at `o`.
-/
import proofs.«133133_g13692355740313_cont_week2b_1265_8_alg».proof.Proof.RefPool

noncomputable section

namespace Cert.ReferenceIdeal.RefValue

open Cert.ReferenceIdeal Cert.ReferenceIdeal.Gen Cert.ReferenceIdeal.Read Idealize.ShloMosaic Idealize.ShloMosaic.ValueIdx Cert.PoolHeads

theorem reg_eq_head (x0 : (⟨S5000x256x7x7, .f32⟩ : BufTy).Contents (Elt Ideal)) (x1 : (⟨S324x256, .f32⟩ : BufTy).Contents (Elt Ideal))
    (x2 : (⟨S324, .f32⟩ : BufTy).Contents (Elt Ideal)) :
    val_main_v12 (F := Ideal) x0 x1 x2 = head x0 x1 x2 := by
  funext i
  obtain ⟨n, o, rfl⟩ : ∃ (n : Fin 5000) (o : Fin 324), i = ix2 n o := ⟨i 0, i 1, eq_ix2 i⟩
  rw [val_main_v12_apply, Ideal.addf_def, val_main_v9_apply, val_main_v11_apply, val_main_v10_apply, head_ix2]
  unfold headAt
  refine congrArg₂ (· + ·) (Finset.sum_congr rfl fun k _ => ?_) ?_
  · have e1 : lidx_main_v9 (ix2 n o) k = ix2 n k := funext fun a => Fin.ext (by
      match a with
      | ⟨0, _⟩ => rfl
      | ⟨1, _⟩ => rfl)
    have e2 : idx_main_v8 (ridx_main_v9 (ix2 n o) k) = ix2 o k := funext fun a => Fin.ext (by
      match a with
      | ⟨0, _⟩ => rfl
      | ⟨1, _⟩ => rfl)
    rw [val_main_v8_apply, e1, e2, pooledRef_apply]
  · exact congrArg x2 (funext fun a => Fin.ext (by
      match a with
      | ⟨0, _⟩ => rfl))

end Cert.ReferenceIdeal.RefValue

end
-- ==== Proof.lean ====
/-
  A detection head on pooled features: the kernel against its reference, over the extended reals.

  The input is a batch of 5000 feature maps with 256 channels over a 7 × 7 window. Both programs average each map over
  its window and feed the 5000 × 256 matrix of averages to two linear heads, of 81 and of 324 outputs: entry (n, o) of a
  head is the sum over the channels c of average(n, c) · W(o, c), plus the bias b(o) (Proof/HeadSpec.lean states this
  function once, for any number of outputs).

  The reference sums each map over its rows and columns and divides by 49, multiplies the averages against the transposed
  weights, and adds the bias repeated over the samples. The kernel first transposes the input so that the window comes
  first and flattens the window into 49 positions; then, 200 samples at a time, it sums the 49 slabs, multiplies by a
  constant named 1/49, and multiplies the block of averages against the weights as stored, contracting the channel axis of
  both, into a zero accumulator, adding the bias row to every sample's row. Its changes of float format are the identity
  on extended reals.

  The two are one function. Position s of the flattened window is row s / 7, column s % 7, so the sum over the 49 slabs is
  the sum over the 7 × 7 pairs of coordinates; a quotient by 49 is the product with 1/49 on every extended real; the
  transposed weights at (c, o) are the weights at (o, c). Nothing here needs the inputs finite: sums are only re-indexed,
  and the one law about the quotient holds at the infinities too. The 25 blocks of 200 samples tile the 5000 samples, so
  each result array ends as the head of the argument arrays.

  The kernel's naming of its constant is the one rewrite of the idealization: the table gives the name the value 1/49.
-/
import proofs.«133133_g13692355740313_cont_week2b_1265_8_alg».proof.Defs
import proofs.«133133_g13692355740313_cont_week2b_1265_8_alg».proof.Proof.Gen.Kernel
import proofs.«133133_g13692355740313_cont_week2b_1265_8_alg».proof.Proof.Gen.Kernel.Skeleton
import proofs.«133133_g13692355740313_cont_week2b_1265_8_alg».proof.Proof.Gen.Kernel.Launch
import proofs.«133133_g13692355740313_cont_week2b_1265_8_alg».proof.Proof.Gen.Kernel.Points
import proofs.«133133_g13692355740313_cont_week2b_1265_8_alg».proof.Proof.Gen.Kernel.Frame
import proofs.«133133_g13692355740313_cont_week2b_1265_8_alg».proof.Proof.Gen.KernelIdeal
import proofs.«133133_g13692355740313_cont_week2b_1265_8_alg».proof.Proof.Gen.KernelIdeal.Skeleton
import proofs.«133133_g13692355740313_cont_week2b_1265_8_alg».proof.Proof.Gen.KernelIdeal.Launch
import proofs.«133133_g13692355740313_cont_week2b_1265_8_alg».proof.Proof.Gen.KernelIdeal.Points
import proofs.«133133_g13692355740313_cont_week2b_1265_8_alg».proof.Proof.Gen.KernelIdeal.Frame
import proofs.«133133_g13692355740313_cont_week2b_1265_8_alg».proof.Proof.Gen.ReferenceIdeal
import proofs.«133133_g13692355740313_cont_week2b_1265_8_alg».proof.Proof.Gen.Pre_finite_inputs
import proofs.«133133_g13692355740313_cont_week2b_1265_8_alg».proof.Proof.Gen.KernelIdeal.Value
import proofs.«133133_g13692355740313_cont_week2b_1265_8_alg».proof.Proof.Gen.ReferenceIdeal.Run
import proofs.«133133_g13692355740313_cont_week2b_1265_8_alg».proof.Proof.Gen.ReferenceIdeal.Read
import proofs.«133133_g13692355740313_cont_week2b_1265_8_alg».proof.Proof.ClsArray
import proofs.«133133_g13692355740313_cont_week2b_1265_8_alg».proof.Proof.RegArray
import proofs.«133133_g13692355740313_cont_week2b_1265_8_alg».proof.Proof.RefCls
import proofs.«133133_g13692355740313_cont_week2b_1265_8_alg».proof.Proof.RefReg
import Idealize.ShloMosaic.Adequacy
import Idealize.ShloMosaic.Init

noncomputable section

namespace Cert.Proof

open Idealize.ShloMosaic Idealize.ShloMosaic.TcCoe Idealize.SL.Sem Cert.PoolHeads

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The one rewrite of the idealization: the constant named `inv_49` denotes 1/49, as the table says. -/
theorem preserves : Cert.preserves_Kernel_KernelIdeal :=
  IdealRules.named_const.statement Cert.KernelIdeal.κ "inv_49" .f32 0x3CA72F05#32 ((1 / 49 : ℝ) : EReal) rfl

/-- From memories that agree on the arguments both programs end with the two heads of the argument arrays: the kernel's
    result arrays by its 25 blocks (Proof/ClsArray.lean, Proof/RegArray.lean), the reference's by reading its operations
    one at a time (Proof/RefCls.lean, Proof/RefReg.lean). -/
theorem algebraic : Cert.algebraic_KernelIdeal_ReferenceIdeal := by
  intro m ρ m' ρ' _ hagree
  refine ⟨fun c => head (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    fun c => head (m ((c : Thread Cert.KernelIdeal.nD Cert.KernelIdeal.τ).loc Cert.KernelIdeal.main_arg0))
      (m ((c : Thread Cert.KernelIdeal.nD Cert.KernelIdeal.τ).loc Cert.KernelIdeal.main_arg3))
      (m ((c : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.ArrayValue.clsFinal m c),
        (h c).2.1.trans (Cert.KernelIdeal.ArrayValue.regFinal m c), (h c).2.2⟩)
      (Cert.KernelIdeal.Value.run_blocks (F := Ideal) m ρ)
  · refine (θ_run Cert.ReferenceIdeal.defs _ _).mono (fun _ h c => ⟨?_, ?_, (h c).2.2⟩)
      (Cert.ReferenceIdeal.Value.run (F := Ideal) m' ρ')
    · rw [(h c).1, Cert.ReferenceIdeal.Read.val_main_v7_eq, Cert.ReferenceIdeal.RefValue.cls_eq_head,
        (hagree c).1, (hagree c).2.1, (hagree c).2.2.1]
    · rw [(h c).2.1, Cert.ReferenceIdeal.Read.val_main_v12_eq, Cert.ReferenceIdeal.RefValue.reg_eq_head,
        (hagree c).1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
